-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8x2048 : Shape := ⟨2, ![8, 2048]⟩
abbrev S4096x64 : Shape := ⟨2, ![4096, 64]⟩
abbrev S64x4096 : Shape := ⟨2, ![64, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  main_v18

def fn {F : FTy → Type} [FloatOps F] (main_arg0 : FVec F S8x2048x4096 .f32) (main_arg1 : FVec F S8x2048 .f32) (main_arg2 : FVec F S4096x64 .f32) (main_arg3 : FVec F S64x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_v13 main_v16
-- ==== Kernel.lean ====
abbrev S8x2048x4096 : Shape := ⟨3, ![8, 2048, 4096]⟩
abbrev S8x2048 : Shape := ⟨2, ![8, 2048]⟩
abbrev S4096x64 : Shape := ⟨2, ![4096, 64]⟩
abbrev S64x4096 : Shape := ⟨2, ![64, 4096]⟩
abbrev S16384x4096 : Shape := ⟨2, ![16384, 4096]⟩
abbrev S16384x1 : Shape := ⟨2, ![16384, 1]⟩
abbrev S256x4096 : Shape := ⟨2, ![256, 4096]⟩
abbrev S256x1 : Shape := ⟨2, ![256, 1]⟩
abbrev S256x64 : Shape := ⟨2, ![256, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S8x2048, .f32⟩
  | .hbm, ⟨2, _⟩ => ⟨S4096x64, .f32⟩
  | .hbm, ⟨3, _⟩ => ⟨S64x4096, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S4096x64, .f32⟩
  | .local _ .vmem, ⟨5, _⟩ => ⟨S64x4096, .f32⟩
  | .local _ .vmem, ⟨6, _⟩ => ⟨S256x4096, .f32⟩
  | .local _ .vmem, ⟨7, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x4096_S16384x4096 : S8x2048x4096.ShapeCasts S16384x4096
  shapeCasts_S8x2048_S16384x1 : S8x2048.ShapeCasts S16384x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  inb_S64x4096_S64x4096_0_0 : ∀ a, (![0, 0] : Fin 2 → Nat) a + S64x4096.size a ≤ S64x4096.size a
  h_S64x4096 : 0 < S64x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  shapeCasts_S16384x4096_S8x2048x4096 : S16384x4096.ShapeCasts S8x2048x4096
  dot_S256x4096_S4096x64_S256x64_1_0_0_1_n_n_wf : DotDims.WF S256x4096 S4096x64 S256x64 [1] [0] [0] [1] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S8x2048 : Shape := ⟨2, ![8, 2048]⟩
abbrev S4096x64 : Shape := ⟨2, ![4096, 64]⟩
abbrev S64x4096 : Shape := ⟨2, ![64, 4096]⟩
abbrev S8x2048x64 : Shape := ⟨3, ![8, 2048, 64]⟩
abbrev S_ : Shape := ⟨0, ![]⟩
abbrev S8x2048x1 : Shape := ⟨3, ![8, 2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x2048, .f32⟩
  | .hbm, ⟨2, _⟩ => ⟨S4096x64, .f32⟩
  | .hbm, ⟨3, _⟩ => ⟨S64x4096, .f32⟩
  | .hbm, ⟨4, _⟩ => ⟨S8x2048x64, .f32⟩
  | .hbm, ⟨5, _⟩ => ⟨S8x2048x4096, .f32⟩
  | .hbm, ⟨6, _⟩ => ⟨S_, .f32⟩
  | .hbm, ⟨7, _⟩ => ⟨S8x2048x4096, .f32⟩
  | .hbm, ⟨8, _⟩ => ⟨S8x2048x4096, .f32⟩
  | .hbm, ⟨9, _⟩ => ⟨S8x2048x1, .f32⟩
  | .hbm, ⟨10, _⟩ => ⟨S8x2048x4096, .f32⟩
  | .hbm, ⟨11, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  dot_S8x2048x4096_S4096x64_S8x2048x64_2_0_01_1_n_n_wf : DotDims.WF S8x2048x4096 S4096x64 S8x2048x64 [2] [0] [0, 1] [1] [] []
  dot_S8x2048x64_S64x4096_S8x2048x4096_2_0_01_1_n_n_wf : DotDims.WF S8x2048x64 S64x4096 S8x2048x4096 [2] [0] [0, 1] [1] [] []

variable [Facts₀]

def dot_S8x2048x4096_S4096x64_S8x2048x64_2_0_01_1_n_n : DotDims S8x2048x4096 S4096x64 S8x2048x64 where
  lhsContracting := [2]
  rhsContracting := [0]
  lhsNonContracting := [0, 1]
  rhsNonContracting := [1]
  lhsBatch := []
  rhsBatch := []
  wf := dot_S8x2048x4096_S4096x64_S8x2048x64_2_0_01_1_n_n_wf
def dot_S8x2048x64_S64x4096_S8x2048x4096_2_0_01_1_n_n : DotDims S8x2048x64 S64x4096 S8x2048x4096 where
  lhsContracting := [2]
  rhsContracting := [0]
  lhsNonContracting := [0, 1]
  rhsNonContracting := [1]
  lhsBatch := []
  rhsBatch := []
  wf := dot_S8x2048x64_S64x4096_S8x2048x4096_2_0_01_1_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.Spec.lean ====
/-
  A gated low-rank map, index by index over the extended reals.

  For token (b, s) and output feature d the result is
      gate (b, s) · ((Σ_r (Σ_k x (b, s, k) · A (k, r)) · B (r, d)) · 2),
  the inner sum over the input features k, the outer over the rank coordinates r. One token's row of it is `rowMap`.
  The function is written twice: over the [8, 2048] grid of tokens (`tokens`), and over the 16384 = 8 · 2048
  flattened token rows with the gate as a one-column matrix (`rows`). Under the row-major reshapes, token (b, s)
  being row b · 2048 + s, the second read back at (b, s, d) is the first (`rows_reshape`). Only sums and products of
  extended reals occur, each written in the same order on both sides, so no law of the extended reals is needed.
-/
import Idealize.ShloMosaic.PureOps.Ideal.Laws
import Idealize.ShloMosaic.Lib.ValueIdx
import Idealize.ShloMosaic.Lib.Pipeline.Value

noncomputable section

namespace Cert.GatedLowRank

open Idealize.ShloMosaic Idealize.ShloMosaic.ValueIdx

/-- The scaling factor: the single-precision word of 2, read at the extended reals. It is the same word on both
    sides and is never evaluated. -/
abbrev scale : EReal := Ideal.ofBits .f32 0x40000000#32

/-- One token's output at feature `d`: the gate times the scaled two-stage contraction of the token's features
    `xrow` through `A` (features to rank) and `B` (rank to features). -/
def rowMap {K R D : Nat} (xrow : Fin K → EReal) (A : (⟨2, ![K, R]⟩ : Shape).Idx → EReal)
    (B : (⟨2, ![R, D]⟩ : Shape).Idx → EReal) (g : EReal) (d : Fin D) : EReal :=
  g * ((∑ r : Fin R, (∑ k : Fin K, xrow k * A (ix2 k r)) * B (ix2 r d)) * scale)

/-- The map over the [8, 2048] grid of tokens. -/
def tokens (x : (⟨3, ![8, 2048, 4096]⟩ : Shape).Idx → EReal) (g : (⟨2, ![8, 2048]⟩ : Shape).Idx → EReal)
    (A : (⟨2, ![4096, 64]⟩ : Shape).Idx → EReal) (B : (⟨2, ![64, 4096]⟩ : Shape).Idx → EReal) :
    (⟨3, ![8, 2048, 4096]⟩ : Shape).Idx → EReal :=
  fun i => rowMap (fun k => x (ix3 (i 0) (i 1) k)) A B (g (ix2 (i 0) (i 1))) (i 2)

/-- The map over the 16384 flattened token rows, the gate a one-column matrix. -/
def rows (x2 : (⟨2, ![16384, 4096]⟩ : Shape).Idx → EReal) (g2 : (⟨2, ![16384, 1]⟩ : Shape).Idx → EReal)
    (A : (⟨2, ![4096, 64]⟩ : Shape).Idx → EReal) (B : (⟨2, ![64, 4096]⟩ : Shape).Idx → EReal) :
    (⟨2, ![16384, 4096]⟩ : Shape).Idx → EReal :=
  fun j => rowMap (fun k => x2 (ix2 (j 0) k)) A B (g2 (ix2 (j 0) 0)) (j 1)

/-- Token (b, s) is flattened row b · 2048 + s. -/
abbrev rowOf (b : Fin 8) (s : Fin 2048) : Fin 16384 := ⟨b.val * 2048 + s.val, by have := b.isLt; have := s.isLt; omega⟩

/-- The flattened features at row b · 2048 + s, feature k, are the token's. -/
theorem flat_x (x : (⟨3, ![8, 2048, 4096]⟩ : Shape).Idx → EReal)
    (h : (⟨3, ![8, 2048, 4096]⟩ : Shape).ShapeCasts ⟨2, ![16384, 4096]⟩) (b : Fin 8) (s : Fin 2048) (k : Fin 4096) :
    shapeCast ⟨2, ![16384, 4096]⟩ x h (ix2 (rowOf b s) k) = x (ix3 b s k) :=
  shapeCast_apply x h _ _ (by
    rw [Shape.rowMajor_val_three, Shape.rowMajor_val_two]
    show (b.val * 2048 + s.val) * 4096 + k.val = (b.val * 2048 + s.val) * 4096 + k.val
    rfl)

/-- The gate column at row b · 2048 + s is the token's gate. -/
theorem flat_g (g : (⟨2, ![8, 2048]⟩ : Shape).Idx → EReal)
    (h : (⟨2, ![8, 2048]⟩ : Shape).ShapeCasts ⟨2, ![16384, 1]⟩) (b : Fin 8) (s : Fin 2048) :
    shapeCast ⟨2, ![16384, 1]⟩ g h (ix2 (rowOf b s) 0) = g (ix2 b s) :=
  shapeCast_apply g h _ _ (by
    rw [Shape.rowMajor_val_two, Shape.rowMajor_val_two]
    show b.val * 2048 + s.val = (b.val * 2048 + s.val) * 1 + 0
    omega)

/-- The map over flattened rows of the reshaped features and gate, reshaped back to [8, 2048, 4096], is the map over
    tokens. -/
theorem rows_reshape (x : (⟨3, ![8, 2048, 4096]⟩ : Shape).Idx → EReal) (g : (⟨2, ![8, 2048]⟩ : Shape).Idx → EReal)
    (A : (⟨2, ![4096, 64]⟩ : Shape).Idx → EReal) (B : (⟨2, ![64, 4096]⟩ : Shape).Idx → EReal)
    (hx : (⟨3, ![8, 2048, 4096]⟩ : Shape).ShapeCasts ⟨2, ![16384, 4096]⟩)
    (hg : (⟨2, ![8, 2048]⟩ : Shape).ShapeCasts ⟨2, ![16384, 1]⟩)
    (ho : (⟨2, ![16384, 4096]⟩ : Shape).ShapeCasts ⟨3, ![8, 2048, 4096]⟩) :
    shapeCast ⟨3, ![8, 2048, 4096]⟩
        (rows (shapeCast ⟨2, ![16384, 4096]⟩ x hx) (shapeCast ⟨2, ![16384, 1]⟩ g hg) A B) ho
      = tokens x g A B := by
  funext i
  obtain ⟨b, s, d, rfl⟩ : ∃ (b : Fin 8) (s : Fin 2048) (d : Fin 4096), i = ix3 b s d := ⟨i 0, i 1, i 2, eq_ix3 i⟩
  refine (shapeCast_apply _ ho (ix3 b s d) (ix2 (rowOf b s) d) (by
    rw [Shape.rowMajor_val_three, Shape.rowMajor_val_two]
    show (b.val * 2048 + s.val) * 4096 + d.val = (b.val * 2048 + s.val) * 4096 + d.val
    rfl)).trans ?_
  show rowMap (fun k => shapeCast ⟨2, ![16384, 4096]⟩ x hx (ix2 (rowOf b s) k)) A B
      (shapeCast ⟨2, ![16384, 1]⟩ g hg (ix2 (rowOf b s) 0)) d
    = rowMap (fun k => x (ix3 b s k)) A B (g (ix2 b s)) d
  rw [flat_g g hg b s]
  exact congrArg (fun f => rowMap f A B (g (ix2 b s)) d) (funext fun k => flat_x x hx b s k)

end Cert.GatedLowRank

end
-- ==== Proof.Payload.lean ====
/-
  One grid point's stored block, entry by entry.

  The body loads a [256, 4096] block of token rows, the whole [4096, 64] and [64, 4096] factors and a [256, 1] column
  of gates, and stores gate · ((rows · A) · B · 2). The two changes of float format are the identity over the extended
  reals, each matrix product into the zero accumulator is the plain contraction, and the one-column gate is broadcast
  along the features. So entry (p, q) of the stored block is `rowMap` of row p of the loaded rows, the factors, and the
  gate at row p, read at feature q.
-/
import proofs.«131915_j77893526880533_1_alg».proof.Proof.Gen.KernelIdeal.Skeleton
import proofs.«131915_j77893526880533_1_alg».proof.Proof.LibPlainDot
import proofs.«131915_j77893526880533_1_alg».proof.Proof.Spec
import Idealize.ShloMosaic.Lib.Pipeline.Value
import Idealize.ShloMosaic.Lib.ValueIdx

noncomputable section

namespace Cert.KernelIdeal.Block

open Idealize.ShloMosaic Idealize.ShloMosaic.ValueIdx Cert.KernelIdeal Cert.KernelIdeal.Gen Cert.GatedLowRank

/-- The gate column broadcast along the features reads, at (p, q), the gate of row p. -/
theorem gate_col (g : FVec Ideal S256x1 .f32) (p : Fin 256) (q : Fin 4096) :
    broadcastTo S256x4096 (shapeCast S256x1 g shapeCasts_S256x1_S256x1) broadcasts_S256x1_S256x4096 (ix2 p q)
      = g (ix2 p 0) := by
  rw [shapeCast_self]
  exact broadcastTo_apply g broadcasts_S256x1_S256x4096 (ix2 p q) (ix2 p 0) (fun a => match a with
    | ⟨0, _⟩ => by show p.val = if (256 : Nat) = 1 then 0 else p.val; rw [if_neg (by decide)]
    | ⟨1, _⟩ => by show (0 : Nat) = if (1 : Nat) = 1 then 0 else q.val; rw [if_pos rfl])

/-- The first product: rows times A, at (p, r), is the sum over the 4096 features. -/
theorem rows_times_A (x0 : FVec Ideal S256x4096 .f32) (xA : FVec Ideal S4096x64 .f32) (p : Fin 256) (r : Fin 64) :
    matmul (F := Ideal) dot_S256x4096_S4096x64_S256x64_1_0_0_1_n_n none
        (truncf .bf16 (shapeCast S256x4096 x0 shapeCasts_S256x4096_S256x4096) bitsLt_bf16_f32)
        (truncf .bf16 xA bitsLt_bf16_f32) (constant S256x64 .f32 0x00000000#32) (ix2 p r)
      = ∑ k : Fin 4096, x0 (ix2 p k) * xA (ix2 k r) := by
  rw [shapeCast_self]
  exact Cert.Lib.PlainDot.matmul_zero_apply 256 4096 64 none x0 xA p r

/-- The second product: a [256, 64] matrix times B, at (p, q), is the sum over the 64 rank coordinates. -/
theorem times_B (t : FVec Ideal S256x64 .f32) (xB : FVec Ideal S64x4096 .f32) (p : Fin 256) (q : Fin 4096) :
    matmul (F := Ideal) dot_S256x64_S64x4096_S256x4096_1_0_0_1_n_n none
        (truncf .bf16 t bitsLt_bf16_f32) (truncf .bf16 xB bitsLt_bf16_f32)
        (constant S256x4096 .f32 0x00000000#32) (ix2 p q)
      = ∑ r : Fin 64, t (ix2 p r) * xB (ix2 r q) :=
  Cert.Lib.PlainDot.matmul_zero_apply 256 64 4096 none t xB p q

/-- Entry (p, q) of the stored block. -/
theorem payload_apply (x0 : Vec Ideal S256x4096 .f32) (xA : Vec Ideal S4096x64 .f32) (xB : Vec Ideal S64x4096 .f32)
    (g : Vec Ideal S256x1 .f32) (p : Fin 256) (q : Fin 4096) :
    k0_pay1 (F := Ideal) x0 xA xB g (ix2 p q) = rowMap (fun k => x0 (ix2 p k)) xA xB (g (ix2 p 0)) q := by
  unfold k0_pay1 rowMap
  dsimp only
  rw [mulf_apply, mulf_apply, gate_col, times_B, broadcast_apply]
  simp only [rows_times_A]
  rfl

/-- A block whose row p is row `row` of the flattened features and gates, and whose factors are the whole factors:
    entry (p, q) of the stored block is the map over flattened rows at (row, q). -/
theorem block_entry (X2 : FVec Ideal S16384x4096 .f32) (G2 : FVec Ideal S16384x1 .f32)
    (A : FVec Ideal S4096x64 .f32) (B : FVec Ideal S64x4096 .f32)
    (x0 : FVec Ideal S256x4096 .f32) (xA : FVec Ideal S4096x64 .f32) (xB : FVec Ideal S64x4096 .f32)
    (g : FVec Ideal S256x1 .f32) (p : Fin 256) (q : Fin 4096) (row : Fin 16384)
    (hx : ∀ k, x0 (ix2 p k) = X2 (ix2 row k)) (hg : g (ix2 p 0) = G2 (ix2 row 0)) (hA : xA = A) (hB : xB = B) :
    k0_pay1 (F := Ideal) x0 xA xB g (ix2 p q) = rows X2 G2 A B (ix2 row q) := by
  rw [payload_apply, hA, hB, hg]
  exact congrArg (fun f => rowMap f A B (G2 (ix2 row 0)) q) (funext hx)

end Cert.KernelIdeal.Block

end
-- ==== Proof.KernelValue.lean ====
/-
  What the kernel program leaves in its result, as a function of the argument arrays, over the extended reals.

  Before the launch the host flattens the features to [16384, 4096] and the gates to a [16384, 1] column. Grid point t
  takes rows 256 t … 256 t + 255 of both, the two factors whole, and writes back rows 256 t … 256 t + 255 of the output:
  the map over flattened rows (`rows`) restricted to that block. The 64 blocks tile the [16384, 4096] output, so after
  the launch the output array is `rows` of the flattened arguments, and the host's reshape back to [8, 2048, 4096]
  makes it the map over tokens (`tokens`) of the arguments.
-/
import proofs.«131915_j77893526880533_1_alg».proof.Proof.Gen.KernelIdeal.Frame
import proofs.«131915_j77893526880533_1_alg».proof.Proof.Payload
import Idealize.ShloMosaic.Lib.Pipeline.Value
import Idealize.ShloMosaic.Lib.StableHlo.Run

set_option maxRecDepth 16384

noncomputable section

namespace Cert.KernelIdeal.RowsValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.GatedLowRank

variable (m : (ℓ : Loc nD τ sig) → Buf (Elt Ideal) ℓ) (ρ : Dev nD → PrngReg)

/-! ## The arrays the launch finds -/

/-- The flattened features: the host's reshape of the first argument. -/
theorem V_rows (c : Dev nD) :
    (V m c main_v0 : S16384x4096.Idx → EReal)
      = shapeCast S16384x4096 (m ((c : Thread nD τ).loc main_arg0)) shapeCasts_S8x2048x4096_S16384x4096 := by
  show StableHlo.after hostOps0 (fun b => m (c, b)) (Proc.devRef .tc main_v0) = _
  after_results
  rfl

/-- The gate column: the host's reshape of the second argument. -/
theorem V_gate (c : Dev nD) :
    (V m c main_v1 : S16384x1.Idx → EReal)
      = shapeCast S16384x1 (m ((c : Thread nD τ).loc main_arg1)) shapeCasts_S8x2048_S16384x1 := by
  show StableHlo.after hostOps0 (fun b => m (c, b)) (Proc.devRef .tc main_v1) = _
  after_results
  rfl

/-! ## One grid point's block -/

theorem offsets_zero : (![0, 0] : Fin 2 → Nat) = fun _ => 0 := funext fun a => by fin_cases a <;> rfl

/-- The block indices over the grid: the features', the gates' and the output's block row is the point's number, the
    factors' block is the only one. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 64 := lt_of_lt_of_eq t.isLt N_0

/-- What point t writes back is block t of the map over flattened rows of the arrays the launch finds. -/
theorem flushed_rows (c : Dev nD) (t : Fin cfg0.N) :
    (dats m 0 c).flushed 4 t
      = ((cfg0.win 4).blk t).view.read (Elt Ideal)
          (rows (V m c main_v0) (V m c main_v1) (V m c main_arg2) (V m c main_arg3)) := by
  show (cfg0.win 4).cut (grid0.coords t) ((dats m 0 c).after 4 t) = _
  rw [after0_4]
  unfold out0_4
  rw [View.canon_unit_zero offsets_zero]
  simp only [View.ld_unit_zero (S := S256x4096) offsets_zero, View.ld_unit_zero (S := S4096x64) offsets_zero,
    View.ld_unit_zero (S := S64x4096) offsets_zero, View.ld_unit_zero (S := S256x1) offsets_zero]
  obtain ⟨e00, e01, e10, e11, e20, e21, e30, e31, e40, e41⟩ := block_indices t
  have ht := point_lt t
  funext j
  obtain ⟨p, q, rfl⟩ : ∃ (p : Fin 256) (q : Fin 4096), j = ix2 p q := ⟨j 0, j 1, eq_ix2 j⟩
  have hp := p.isLt
  have hrow : t.val * 256 + p.val < 16384 := by omega
  refine (Block.block_entry (V m c main_v0) (V m c main_v1) (V m c main_arg2) (V m c main_arg3)
    (iblk m c 0 t) (iblk m c 2 t) (iblk m c 3 t) (iblk m c 1 t) p q ⟨t.val * 256 + p.val, hrow⟩ ?_ ?_ ?_ ?_).trans ?_
  · intro k
    show V m c main_v0 (((cfg0.win 0).blk t).view.emb (ix2 p k)) = V m c main_v0 (ix2 ⟨t.val * 256 + p.val, hrow⟩ k)
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 4096 + 1 * k.val = k.val; omega
  · show V m c main_v1 (((cfg0.win 1).blk t).view.emb (ix2 p 0)) = V m c main_v1 (ix2 ⟨t.val * 256 + p.val, hrow⟩ 0)
    refine congrArg _ (funext fun a => Fin.ext ?_)
    match a with
    | ⟨0, _⟩ => show win0_1.index t (0 : Fin 2) * 256 + 1 * p.val = t.val * 256 + p.val; omega
    | ⟨1, _⟩ => show win0_1.index t (1 : Fin 2) * 1 + 1 * 0 = 0; omega
  · funext y
    show V m c main_arg2 (((cfg0.win 2).blk t).view.emb y) = V m c main_arg2 y
    refine congrArg _ (funext fun a => Fin.ext ?_)
    match a with
    | ⟨0, _⟩ => show win0_2.index t (0 : Fin 2) * 4096 + 1 * (y 0).val = (y 0).val; omega
    | ⟨1, _⟩ => show win0_2.index t (1 : Fin 2) * 64 + 1 * (y 1).val = (y 1).val; omega
  · funext y
    show V m c main_arg3 (((cfg0.win 3).blk t).view.emb y) = V m c main_arg3 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 4096 + 1 * (y 1).val = (y 1).val; omega
  · show rows (V m c main_v0) (V m c main_v1) (V m c main_arg2) (V m c main_arg3) (ix2 ⟨t.val * 256 + p.val, hrow⟩ q)
      = rows (V m c main_v0) (V m c main_v1) (V m c main_arg2) (V m c main_arg3) (((cfg0.win 4).blk t).view.emb (ix2 p q))
    refine congrArg _ (funext fun a => Fin.ext ?_)
    match a with
    | ⟨0, _⟩ => show t.val * 256 + p.val = win0_4.index t (0 : Fin 2) * 256 + 1 * p.val; omega
    | ⟨1, _⟩ => show q.val = win0_4.index t (1 : Fin 2) * 4096 + 1 * q.val; omega

/-! ## The blocks tile the output -/

/-- An index of the output is in point t's block iff each coordinate is in the block's range on its axis. -/
theorem mem_block (t : Fin cfg0.N) (i : S16384x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v2).slice (win0_4.rect t)).set ↔ _
  rw [View.set_slice_whole, Rect.mem_set_unit]
  exact Iff.rfl

/-- Row r of the output is written back by point r / 256. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have ht : (i 0).val / 256 < cfg0.N := by rw [show cfg0.N = 64 from N_0]; omega
  obtain ⟨-, -, -, -, -, -, -, -, e40, e41⟩ := block_indices ⟨(i 0).val / 256, ht⟩
  refine ⟨⟨(i 0).val / 256, ht⟩, flush0_4 _, ?_⟩
  rw [mem_block]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [e40]
    show (i 0).val / 256 * 256 ≤ (i 0).val ∧ (i 0).val < (i 0).val / 256 * 256 + 256
    omega
  | ⟨1, _⟩ =>
    show win0_4.index ⟨(i 0).val / 256, ht⟩ (1 : Fin 2) * 4096 ≤ (i 1).val
      ∧ (i 1).val < win0_4.index ⟨(i 0).val / 256, ht⟩ (1 : Fin 2) * 4096 + 4096
    rw [e41]
    omega

/-- The output array after the launch. -/
theorem output_rows (c : Dev nD) :
    (dats m 0 c).arrAt 4 cfg0.N = rows (V m c main_v0) (V m c main_v1) (V m c main_arg2) (V m c main_arg3) :=
  (dats m 0 c).arrAt_eq_of_cover 4 _ (fun t _ => flushed_rows m c t) covered

/-! ## The host's reshape after the launch, and the run -/

/-- The program's result: the output reshaped to [8, 2048, 4096] is the map over tokens of the arguments. -/
theorem result_tokens (c : Dev nD) :
    Pipeline.afterTail₀ cfgs (dats m) 0 (V0 m) [hostOps1] c main_v3
      = tokens (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  have hout : Pipeline.withArrays (cfgs 0).spec c (V0 m c) (fun w => (dats m 0 c).arrAt w (cfgs 0).N)
        (Proc.devRef .tc main_v2)
      = rows (V m c main_v0) (V m c main_v1) (V m c main_arg2) (V m c main_arg3) :=
    (Pipeline.withArrays_arr spec0 launch0.win.arr_inj c _ _ 4).trans (output_rows m c)
  show shapeCast S8x2048x4096 (Pipeline.withArrays (cfgs 0).spec c (V0 m c) (fun w => (dats m 0 c).arrAt w (cfgs 0).N)
        (Proc.devRef .tc main_v2)) shapeCasts_S16384x4096_S8x2048x4096 = _
  rw [hout, V_rows, V_gate, V_main_arg2, V_main_arg3]
  exact rows_reshape _ _ _ _ _ _ _

/-- Every weakly fair execution of the kernel program terminates with its result at the map over tokens of the
    arguments, and the arguments as they were. -/
theorem run : θ_run defs (onTc (τ := τ) (main (F := Ideal))) ⟨m, fun _ => 0, ρ⟩ fun r => ∀ c : Dev nD,
      r.2.mem ((c.tc : Thread nD τ).loc main_v3)
        = tokens (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_tokens m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.RowsValue

end
-- ==== Proof.RefValue.lean ====
/-
  What the reference program computes, as a function of the argument arrays, over the extended reals.

  The host contracts the features with A over the 4096 input features, the result with B over the 64 rank coordinates,
  scales by 2, and multiplies by the gate broadcast along the features. Entry (b, s, d) is therefore the gate of token
  (b, s) times the scaled two-stage sum: the map over tokens (`tokens`), with every sum and product in the same order.
-/
import proofs.«131915_j77893526880533_1_alg».proof.Proof.Gen.ReferenceIdeal.Read
import proofs.«131915_j77893526880533_1_alg».proof.Proof.Spec

noncomputable section

namespace Cert.ReferenceIdeal.TokensValue

open Idealize.ShloMosaic Idealize.ShloMosaic.ValueIdx
open Cert.ReferenceIdeal Cert.ReferenceIdeal.Gen Cert.ReferenceIdeal.Read Cert.GatedLowRank

/-- The first contraction's operand indices: token (b, s) at feature k, and A at (k, r). -/
theorem lidx0 (i : S8x2048x64.Idx) (k : Fin 4096) : lidx_main_v0 i k = ix3 (i 0) (i 1) k :=
  funext fun a => Fin.ext (by match a with | ⟨0, _⟩ => rfl | ⟨1, _⟩ => rfl | ⟨2, _⟩ => rfl)
theorem ridx0 (i : S8x2048x64.Idx) (k : Fin 4096) : ridx_main_v0 i k = ix2 k (i 2) :=
  funext fun a => Fin.ext (by match a with | ⟨0, _⟩ => rfl | ⟨1, _⟩ => rfl)
/-- The second contraction's: the first product at token (b, s), rank r, and B at (r, d). -/
theorem lidx1 (i : S8x2048x4096.Idx) (r : Fin 64) : lidx_main_v1 i r = ix3 (i 0) (i 1) r :=
  funext fun a => Fin.ext (by match a with | ⟨0, _⟩ => rfl | ⟨1, _⟩ => rfl | ⟨2, _⟩ => rfl)
theorem ridx1 (i : S8x2048x4096.Idx) (r : Fin 64) : ridx_main_v1 i r = ix2 r (i 2) :=
  funext fun a => Fin.ext (by match a with | ⟨0, _⟩ => rfl | ⟨1, _⟩ => rfl)
/-- The gate's: token (b, s) through the two broadcasts. -/
theorem gidx (i : S8x2048x4096.Idx) : idx_main_v4 (idx_main_v5 i) = ix2 (i 0) (i 1) :=
  funext fun a => Fin.ext (by match a with | ⟨0, _⟩ => rfl | ⟨1, _⟩ => rfl)

/-- The reference's result is the map over tokens of its arguments. -/
theorem result_tokens (x : (⟨S8x2048x4096, .f32⟩ : BufTy).Contents (Elt Ideal))
    (g : (⟨S8x2048, .f32⟩ : BufTy).Contents (Elt Ideal)) (A : (⟨S4096x64, .f32⟩ : BufTy).Contents (Elt Ideal))
    (B : (⟨S64x4096, .f32⟩ : BufTy).Contents (Elt Ideal)) :
    val_main_v6 (F := Ideal) x g A B = tokens x g A B := by
  funext i
  have first : ∀ j : S8x2048x64.Idx,
      val_main_v0 (F := Ideal) x A j = ∑ k : Fin 4096, x (ix3 (j 0) (j 1) k) * A (ix2 k (j 2)) := fun j => by
    rw [val_main_v0_apply]
    simp only [lidx0, ridx0]
    rfl
  rw [val_main_v6_apply, val_main_v5_apply, val_main_v4_apply, val_main_v3_apply, val_main_v2_apply,
    val_main_cst_apply, val_main_v1_apply]
  simp only [lidx1, ridx1, gidx]
  show g (ix2 (i 0) (i 1)) * ((∑ r : Fin 64, val_main_v0 (F := Ideal) x A (ix3 (i 0) (i 1) r) * B (ix2 r (i 2))) * scale)
    = g (ix2 (i 0) (i 1))
      * ((∑ r : Fin 64, (∑ k : Fin 4096, x (ix3 (i 0) (i 1) k) * A (ix2 k r)) * B (ix2 r (i 2))) * scale)
  refine congrArg (fun s : EReal => g (ix2 (i 0) (i 1)) * (s * scale)) (Finset.sum_congr rfl fun r _ => ?_)
  exact congrArg (fun v : EReal => v * B (ix2 r (i 2))) (first (ix3 (i 0) (i 1) r))

end Cert.ReferenceIdeal.TokensValue

end
-- ==== Proof.lean ====
/-
  A gated low-rank update computed by a tiled kernel against its plain reference, equal over the extended reals.

  Both programs map features x [8, 2048, 4096], gates g [8, 2048] and factors A [4096, 64], B [64, 4096] to
      out (b, s, d) = g (b, s) · ((Σ_r (Σ_k x (b, s, k) · A (k, r)) · B (r, d)) · 2)
  (Proof/Spec.lean, `tokens`). The kernel flattens the tokens to 16384 rows, runs 64 grid points of 256 rows each, every
  point forming the two matrix products of its rows with the whole factors, scaling by 2 and multiplying by its rows'
  gates, and reshapes the result back (Proof/Payload.lean: one stored block entry by entry; Proof/KernelValue.lean: the
  blocks tile the output, and the reshapes before and after turn the map over rows into the map over tokens). The
  reference forms the same two contractions on the unflattened array, scales and gates (Proof/RefValue.lean). Over the
  extended reals a change of float format is the identity and a matrix product into a zero accumulator is the plain
  contraction, and both programs form every sum and product in the same order, so the two results are the same term:
  no law of the extended reals beyond this is used and the finiteness of the inputs is never opened.

  The three frames are the generated ones (the reference's is its generated run with the result dropped); the
  idealization rewrote nothing, so `preserves` is trivial.
-/
import proofs.«131915_j77893526880533_1_alg».proof.Defs
import proofs.«131915_j77893526880533_1_alg».proof.Proof.Gen.Kernel
import proofs.«131915_j77893526880533_1_alg».proof.Proof.Gen.Kernel.Skeleton
import proofs.«131915_j77893526880533_1_alg».proof.Proof.Gen.Kernel.Launch
import proofs.«131915_j77893526880533_1_alg».proof.Proof.Gen.Kernel.Points
import proofs.«131915_j77893526880533_1_alg».proof.Proof.Gen.Kernel.Frame
import proofs.«131915_j77893526880533_1_alg».proof.Proof.Gen.KernelIdeal
import proofs.«131915_j77893526880533_1_alg».proof.Proof.Gen.KernelIdeal.Skeleton
import proofs.«131915_j77893526880533_1_alg».proof.Proof.Gen.KernelIdeal.Launch
import proofs.«131915_j77893526880533_1_alg».proof.Proof.Gen.KernelIdeal.Points
import proofs.«131915_j77893526880533_1_alg».proof.Proof.Gen.KernelIdeal.Frame
import proofs.«131915_j77893526880533_1_alg».proof.Proof.Gen.ReferenceIdeal
import proofs.«131915_j77893526880533_1_alg».proof.Proof.Gen.Pre_finite_inputs
import proofs.«131915_j77893526880533_1_alg».proof.Proof.Gen.ReferenceIdeal.Run
import proofs.«131915_j77893526880533_1_alg».proof.Proof.Gen.ReferenceIdeal.Read
import proofs.«131915_j77893526880533_1_alg».proof.Proof.KernelValue
import proofs.«131915_j77893526880533_1_alg».proof.Proof.RefValue
import Idealize.ShloMosaic.Adequacy
import Idealize.ShloMosaic.Init

noncomputable section

namespace Cert.Proof

open Idealize.ShloMosaic Idealize.SL.Sem

/-- The word-level kernel program terminates and leaves its arguments as they were: the generated frame. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The reference program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the map over tokens of those arguments. -/
theorem algebraic : Cert.algebraic_KernelIdeal_ReferenceIdeal := by
  intro m ρ m' ρ' _ hagree
  refine ⟨_, Cert.KernelIdeal.RowsValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.TokensValue.result_tokens,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
